-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x4096.size a
  hwx0_7 : ∀ i : grid0.Coords, EltTy.bits .f32 = 32 ∨ (Rect.block (s := S4096x4096) S1024x1024.size (cc0_transform_7 i) (hinb0_7 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.BlockSum.lean ====
/-
  A sum over 4096 indices regrouped as eight consecutive blocks of 512.

  `psum f k` is the sum of `f` over the first `k` blocks. It starts at zero, grows by one block's sum per step, and after
  eight steps it is the sum of `f` over every index. Only commutativity and associativity of addition are used, so this
  holds in any commutative additive monoid — in particular on the extended reals, where no finiteness is needed.
-/
import Mathlib.Data.Fintype.BigOperators
import Mathlib.Logic.Equiv.Fin.Basic

namespace Cert.BlockSum

/-- Index `j` inside block `b`: blocks are runs of 512 consecutive indices, block `b` starting at `512 * b`. The block
    number is reduced mod 8 so that the index is in range whatever `b` is; for `b < 8` the reduction does nothing. -/
def blkIdx (b : ℕ) (j : Fin 512) : Fin 4096 :=
  ⟨(b % 8) * 512 + j.val, by
    have hj := j.isLt
    have hb : b % 8 < 8 := Nat.mod_lt b (by decide)
    omega⟩

theorem blkIdx_val (b : ℕ) (j : Fin 512) : (blkIdx b j).val = (b % 8) * 512 + j.val := rfl

variable {M : Type*} [AddCommMonoid M]

/-- The sum of `f` over the first `k` blocks of 512 indices. -/
def psum (f : Fin 4096 → M) (k : ℕ) : M := ∑ b ∈ Finset.range k, ∑ j : Fin 512, f (blkIdx b j)

/-- No block: zero. -/
theorem psum_zero (f : Fin 4096 → M) : psum f 0 = 0 := Finset.sum_range_zero _

/-- One more block adds that block's sum. -/
theorem psum_succ (f : Fin 4096 → M) (k : ℕ) : psum f (k + 1) = psum f k + ∑ j : Fin 512, f (blkIdx k j) :=
  Finset.sum_range_succ _ _

/-- The first block alone. -/
theorem psum_one (f : Fin 4096 → M) : psum f 1 = ∑ j : Fin 512, f (blkIdx 0 j) := by
  rw [psum_succ, psum_zero, zero_add]

/-- Eight blocks of 512 are all 4096 indices: index `i` is index `i % 512` of block `i / 512`, a bijection between
    pairs (block, offset) and indices. -/
theorem psum_eight (f : Fin 4096 → M) : psum f 8 = ∑ i, f i := by
  unfold psum
  rw [← Fin.sum_univ_eq_sum_range (fun b => ∑ j : Fin 512, f (blkIdx b j)) 8,
    ← Fintype.sum_prod_type' (fun (b : Fin 8) (j : Fin 512) => f (blkIdx b.val j))]
  refine Fintype.sum_equiv (finProdFinEquiv : Fin 8 × Fin 512 ≃ Fin 4096) _ _ (fun p => congrArg f (Fin.ext ?_))
  have h1 := p.1.isLt
  show (p.1.val % 8) * 512 + p.2.val = p.2.val + 512 * p.1.val
  rw [Nat.mod_eq_of_lt h1]
  omega

end Cert.BlockSum
-- ==== Proof.SampledLinear.lean ====
/-
  The function both programs compute, on the extended reals, index by index.

  A linear layer whose weights and bias are sampled by reparameterization: with `softplus r = log (1 + exp r)`,
    weight o i = w_mu[o, i] + softplus (w_rho[o, i]) * eps_w[o, i]
    bias o     = b_mu[o] + softplus (b_rho[o]) * eps_b[o]
    result[n, o] = (∑ i, x[n, i] * weight o i) + bias o
  over 4096 tokens `n`, 4096 outputs `o` and 4096 inputs `i`. The contraction pairs the LAST axis of `x` with the LAST axis
  of the weight matrix, so no transpose appears.
-/
import Idealize.ShloMosaic.PureOps.Ideal
import Idealize.ShloMosaic.Lib.ValueIdx
import proofs.«167456_j83769042141907_1_alg».proof.Proof.BlockSum

noncomputable section

open scoped BigOperators

namespace Cert.SampledLinear

open Idealize.ShloMosaic Idealize.ShloMosaic.ValueIdx Cert.BlockSum

/-- A 4096 × 4096 matrix of extended reals. -/
abbrev Mat : Type := FVec Ideal (⟨2, ![4096, 4096]⟩ : Shape) .f32
/-- A vector of 4096 extended reals. -/
abbrev Row : Type := FVec Ideal (⟨1, ![4096]⟩ : Shape) .f32

/-- `softplus r = log (1 + exp r)` on the extended reals. -/
def softplus (r : EReal) : EReal := Ideal.log1p (Ideal.exp r)

/-- The sampled weight for output `o` and input `i`. -/
def weight (wmu wrho epsw : Mat) (o i : Fin 4096) : EReal :=
  wmu (ix2 o i) + softplus (wrho (ix2 o i)) * epsw (ix2 o i)

/-- The sampled bias for output `o`. -/
def bias (bmu brho epsb : Row) (o : Fin 4096) : EReal :=
  bmu (ix1 o) + softplus (brho (ix1 o)) * epsb (ix1 o)

/-- One term of the contraction for token `n` and output `o`. -/
def term (x wmu wrho epsw : Mat) (n o : Fin 4096) (i : Fin 4096) : EReal :=
  x (ix2 n i) * weight wmu wrho epsw o i

/-- The layer's result: for token `n = j 0` and output `o = j 1`, the contraction over all inputs plus the bias. -/
def layer (x wmu wrho : Mat) (bmu brho : Row) (epsw : Mat) (epsb : Row) : Mat :=
  fun j => (∑ i : Fin 4096, term x wmu wrho epsw (j 0) (j 1) i) + bias bmu brho epsb (j 1)

/-- The contraction accumulated block by block: after the first `k` blocks of 512 inputs. -/
def accum (x wmu wrho epsw : Mat) (n o : Fin 4096) (k : ℕ) : EReal :=
  psum (term x wmu wrho epsw n o) k

/-- Starting from zero and adding the first block gives one block's accumulated sum. -/
theorem accum_first (x wmu wrho epsw : Mat) (n o : Fin 4096) :
    (0 : EReal) + ∑ j : Fin 512, term x wmu wrho epsw n o (blkIdx 0 j) = accum x wmu wrho epsw n o 1 := by
  rw [zero_add]; exact (psum_one _).symm

/-- Adding block `k` to the sum accumulated over `k` blocks gives the sum accumulated over `k + 1` blocks. -/
theorem accum_step (x wmu wrho epsw : Mat) (n o : Fin 4096) (k : ℕ) :
    accum x wmu wrho epsw n o k + ∑ j : Fin 512, term x wmu wrho epsw n o (blkIdx k j)
      = accum x wmu wrho epsw n o (k + 1) :=
  (psum_succ _ _).symm

/-- After all eight blocks, plus the bias: the layer's result. -/
theorem accum_all_add_bias (x wmu wrho : Mat) (bmu brho : Row) (epsw : Mat) (epsb : Row) (n o : Fin 4096) :
    accum x wmu wrho epsw n o 8 + bias bmu brho epsb o = layer x wmu wrho bmu brho epsw epsb (ix2 n o) := by
  unfold accum layer
  rw [psum_eight]

end Cert.SampledLinear

end
-- ==== Proof.RefIsLayer.lean ====
/-
  The reference, read index by index, is the sampled linear layer.

  The host program forms the sampled weight matrix and the sampled bias elementwise, contracts the last axis of `x` with
  the last axis of the weights by one `dot_general`, and adds the bias broadcast along the token axis. On the extended
  reals the host's `exp` and `log1p` are the same functions the specification uses, the `dot_general` is the plain sum
  over the contracted index, and the two broadcasts read the bias at the output coordinate.
-/
import proofs.«167456_j83769042141907_1_alg».proof.Proof.Gen.ReferenceIdeal.Read
import proofs.«167456_j83769042141907_1_alg».proof.Proof.SampledLinear

noncomputable section

namespace Cert.ReferenceIdeal.RefValue

open Cert.ReferenceIdeal Cert.ReferenceIdeal.Read Idealize.ShloMosaic Idealize.ShloMosaic.ValueIdx Cert.SampledLinear

/-- The left operand of the contraction is read at (token, contracted index). -/
theorem lidx_eq (i : S4096x4096.Idx) (k : Fin 4096) : lidx_main_v8 i k = ix2 (i 0) k :=
  funext fun a => Fin.ext (by match a with | ⟨0, _⟩ => rfl | ⟨1, _⟩ => rfl)

/-- The right operand of the contraction is read at (output, contracted index): no transpose. -/
theorem ridx_eq (i : S4096x4096.Idx) (k : Fin 4096) : ridx_main_v8 i k = ix2 (i 1) k :=
  funext fun a => Fin.ext (by match a with | ⟨0, _⟩ => rfl | ⟨1, _⟩ => rfl)

/-- The two broadcasts read the bias vector at the output coordinate. -/
theorem bidx_eq (i : S4096x4096.Idx) : idx_main_v9 (idx_main_v10 i) = ix1 (i 1) :=
  funext fun a => Fin.ext (by match a with | ⟨0, _⟩ => rfl)

/-- The reference's result, as a function of its seven arguments, is the layer. -/
theorem ref_eq_layer (x0 x1 x2 : Mat) (x3 x4 : Row) (x5 : Mat) (x6 : Row) :
    val_main_v11 (F := Ideal) x0 x1 x2 x3 x4 x5 x6 = layer x0 x1 x2 x3 x4 x5 x6 := by
  funext i
  rw [val_main_v11_apply, val_main_v8_apply, val_main_v10_apply, val_main_v9_apply, val_main_v7_apply,
    val_main_v6_apply, val_main_v5_apply, val_main_v4_apply, bidx_eq]
  simp only [val_main_v3_apply, val_main_v2_apply, val_main_v1_apply, val_main_v0_apply, lidx_eq, ridx_eq,
    Ideal.addf_def, Ideal.mulf_def, Ideal.hostUnary_exp_def, Ideal.hostUnary_log1p_def]
  rfl

end Cert.ReferenceIdeal.RefValue

end
-- ==== Proof.Pieces.lean ====
/-
  What one grid point's body leaves behind, as pure functions of what it loaded.

  The body keeps a 1024 × 1024 accumulator in scratch memory across the eight reduction steps of an output tile.
  At the first step it stores zeros and then the zeros plus this step's product; at every later step it stores what
  the step before left plus this step's product; at the last step it also stores accumulator plus bias into the
  output tile. Each lemma below names the stored value: the pieces a case's run wrote, read back, are one payload of
  the blocks the body loaded (and of the accumulator it found).
-/
import proofs.«167456_j83769042141907_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- Every access of the body starts at the origin of its buffer. -/
theorem origin : (![0, 0] : Fin 2 → Nat) = fun _ => 0 :=
  funext fun a => by match a with | ⟨0, _⟩ => rfl | ⟨1, _⟩ => rfl

/-- A middle step: the accumulator found (`xs0`) plus this step's product. -/
theorem scratch_mid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i)
    (x0 x1 x2 x3 : Vec F S1024x512 .f32) (x4 x5 x6 : Vec F S1x1024 .f32) (xs0 : Vec F S1024x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay2 x2 x1 x3 x0 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero origin]
  simp only [View.readAt_eq_ld, harg3.read_unread, harg4.read_unread, harg5.read_unread, harg6.read_unread,
    harg11.read_unread, View.ld_unit_zero (S := S1024x512) origin, View.ld_unit_zero (S := S1024x1024) origin]

/-- The last step leaves the same in the accumulator. -/
theorem scratch_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i)
    (x0 x1 x2 x3 : Vec F S1024x512 .f32) (x4 x5 x6 : Vec F S1x1024 .f32) (xs0 : Vec F S1024x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay2 x2 x1 x3 x0 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero origin]
  simp only [View.readAt_eq_ld, harg3.read_unread, harg4.read_unread, harg5.read_unread, harg6.read_unread,
    harg11.read_unread, View.ld_unit_zero (S := S1024x512) origin, View.ld_unit_zero (S := S1024x1024) origin]

/-- The first step: zeros are stored, read back, and this step's product added. -/
theorem scratch_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : ¬cond0_1 i)
    (x0 x1 x2 x3 : Vec F S1024x512 .f32) (x4 x5 x6 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay2 x2 x1 x3 x0 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, harg5.read_unread, harg6.read_unread,
    View.ld_unit_zero (S := S1024x512) origin, View.ld_unit_zero (S := S1024x1024) origin]

/-- The last step's output tile: the accumulator it has just stored, plus the bias row broadcast over the tile. -/
theorem tile_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i)
    (x0 x1 x2 x3 : Vec F S1024x512 .f32) (x4 x5 x6 : Vec F S1x1024 .f32) (xs0 : Vec F S1024x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay3 x5 x4 x6 (k0_pay2 x2 x1 x3 x0 xs0) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero origin]
  simp only [View.readAt_eq_ld, harg3.read_unread, harg4.read_unread, harg5.read_unread, harg6.read_unread,
    harg7.read_unread, harg8.read_unread, harg9.read_unread, harg11.read_unread,
    View.ld_unit_zero (S := S1024x512) origin, View.ld_unit_zero (S := S1x1024) origin,
    View.ld_unit_zero (S := S1024x1024) origin, View.readCov_unit_zero (S := S1024x1024) _ origin]

end Cert.KernelIdeal.Pieces

end
-- ==== Proof.Payload.lean ====
/-
  The body's three stored values, read at one coordinate on the extended reals.

  * The reset value is zero everywhere.
  * The accumulator update at (p, q) is the accumulator found there plus
      ∑ j < 512,  xblk[p, j] * (wmu[q, j] + log (1 + exp wrho[q, j]) * eps[q, j]):
    the matrix unit contracts the LAST axis of both operands, the narrowing of both operands to a shorter float format
    is the identity on the extended reals, and a product into a zero accumulator is the bare sum.
  * The output tile at (p, q) is the accumulator there plus the bias entry of column q, the one bias row being
    broadcast over the 1024 rows of the tile.
-/
import proofs.«167456_j83769042141907_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The contraction's operand coordinates -/

/-- Left operand, axis 0: the output's row. -/
theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

/-- Left operand, axis 1: the contracted coordinate. -/
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q

/-- Right operand, axis 0: the output's column. -/
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- Right operand, axis 1: the contracted coordinate. -/
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of two 1024 × 512 blocks along their last axes, into a zero accumulator, at (p, q):
    the sum over the 512 contracted positions of left[p, j] * right[q, j]. -/
theorem product_apply (l r : FVec Ideal S1024x512 .bf16) (p q : Fin 1024) :
    matmul dot_S1024x512_S1024x512_S1024x1024_1_1_0_0_n_n none l r (constant S1024x1024 .f32 0x00000000#32) (ix2 p q)
      = ∑ j : Fin 512, l (ix2 p j) * r (ix2 q j) := by
  show FloatOps.matmul dot_S1024x512_S1024x512_S1024x1024_1_1_0_0_n_n none l r (constant S1024x1024 .f32 0x00000000#32) (ix2 p q) = _
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-! ## The three stored values -/

/-- The reset value is zero at every coordinate. -/
theorem reset_apply (j : S1024x1024.Idx) : k0_pay1 (F := Ideal) j = 0 := by
  unfold k0_pay1
  rw [shapeCast_self]
  show Ideal.ofBits .f32 0x00000000#32 = 0
  exact Ideal.ofBits_zero_f32

/-- The accumulator update at (p, q). Arguments in the order the body loads them: the `wrho`, `wmu`, `eps` and `x`
    blocks, then the accumulator found. -/
theorem update_apply (wrho wmu eps xb : Vec Ideal S1024x512 .f32) (acc : Vec Ideal S1024x1024 .f32) (p q : Fin 1024) :
    k0_pay2 (F := Ideal) wrho wmu eps xb acc (ix2 p q)
      = acc (ix2 p q) + ∑ j : Fin 512, xb (ix2 p j) * (wmu (ix2 q j) + Ideal.log1p (Ideal.exp (wrho (ix2 q j))) * eps (ix2 q j)) := by
  unfold k0_pay2
  rw [shapeCast_self]
  show acc (ix2 p q) + matmul (F := Ideal) dot_S1024x512_S1024x512_S1024x1024_1_1_0_0_n_n none _ _ (constant (F := Ideal) S1024x1024 .f32 0x00000000#32) (ix2 p q) = _
  rw [product_apply]
  rfl

/-- The output tile at (p, q). Arguments in the order the body loads them: the `brho`, `bmu` and `epsb` rows, then the
    accumulator. -/
theorem tile_apply (brho bmu epsb : Vec Ideal S1x1024 .f32) (acc : Vec Ideal S1024x1024 .f32) (p q : Fin 1024) :
    k0_pay3 (F := Ideal) brho bmu epsb acc (ix2 p q)
      = acc (ix2 p q) + (bmu (ix2 (0 : Fin 1) q) + Ideal.log1p (Ideal.exp (brho (ix2 (0 : Fin 1) q))) * epsb (ix2 (0 : Fin 1) q)) := by
  unfold k0_pay3
  simp only [shapeCast_self]
  show acc (ix2 p q) + broadcastTo (α := Ideal .f32) S1024x1024 _ broadcasts_S1x1024_S1024x1024 (ix2 p q) = _
  rw [broadcastTo_1b_ab_apply]
  rfl

end Cert.KernelIdeal.Payload

end
-- ==== Proof.Blocks.lean ====
/-
  The blocks a grid point loads, read at coordinates of the whole arrays.

  The grid has 4 × 4 × 8 points, numbered `t = (bi * 4 + bj) * 8 + k`: `bi = t / 32` picks 1024 tokens, `bj = (t / 8) % 4`
  picks 1024 outputs, `k = t % 8` picks 512 of the contracted inputs. At point `t`
    the `x` block holds tokens `1024 bi + p` at inputs `512 k + j`;
    the three weight blocks hold outputs `1024 bj + q` at inputs `512 k + j`;
    the three bias blocks hold outputs `1024 bj + q` of a row the host made by reshaping the bias vector to [1, 4096].
-/
import proofs.«167456_j83769042141907_1_alg».proof.Proof.Gen.KernelIdeal.Frame
import proofs.«167456_j83769042141907_1_alg».proof.Proof.SampledLinear
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Cert.SampledLinear Cert.BlockSum

variable (m : (ℓ : Loc nD τ sig) → Buf (Elt Ideal) ℓ)

/-! ## The argument arrays as launched -/

abbrev X (c : Dev nD) : Mat := m ((c : Thread nD τ).loc main_arg0)
abbrev Wmu (c : Dev nD) : Mat := m ((c : Thread nD τ).loc main_arg1)
abbrev Wrho (c : Dev nD) : Mat := m ((c : Thread nD τ).loc main_arg2)
abbrev Bmu (c : Dev nD) : Row := m ((c : Thread nD τ).loc main_arg3)
abbrev Brho (c : Dev nD) : Row := m ((c : Thread nD τ).loc main_arg4)
abbrev Epsw (c : Dev nD) : Mat := m ((c : Thread nD τ).loc main_arg5)
abbrev Epsb (c : Dev nD) : Row := m ((c : Thread nD τ).loc main_arg6)

/-! ## The blocks at a point, at their literal shapes -/

abbrev xblk (c : Dev nD) (t : Fin cfg0.N) : Vec Ideal S1024x512 .f32 := iblk m c 0 t
abbrev wmublk (c : Dev nD) (t : Fin cfg0.N) : Vec Ideal S1024x512 .f32 := iblk m c 1 t
abbrev wrhoblk (c : Dev nD) (t : Fin cfg0.N) : Vec Ideal S1024x512 .f32 := iblk m c 2 t
abbrev epswblk (c : Dev nD) (t : Fin cfg0.N) : Vec Ideal S1024x512 .f32 := iblk m c 3 t
abbrev bmublk (c : Dev nD) (t : Fin cfg0.N) : Vec Ideal S1x1024 .f32 := iblk m c 4 t
abbrev brhoblk (c : Dev nD) (t : Fin cfg0.N) : Vec Ideal S1x1024 .f32 := iblk m c 5 t
abbrev epsbblk (c : Dev nD) (t : Fin cfg0.N) : Vec Ideal S1x1024 .f32 := iblk m c 6 t

/-! ## Which rows a point touches -/

/-- Token `p` of the tile at point `t`. -/
def tokRow (t : Fin cfg0.N) (p : Fin 1024) : Fin 4096 :=
  ⟨(t.val / 32) * 1024 + p.val, by have h := t.isLt; have hN : cfg0.N = 128 := N_0; have := p.isLt; omega⟩

/-- Output `q` of the tile at point `t`. -/
def outRow (t : Fin cfg0.N) (q : Fin 1024) : Fin 4096 :=
  ⟨((t.val / 8) % 4) * 1024 + q.val, by have := q.isLt; omega⟩

theorem tokRow_val (t : Fin cfg0.N) (p : Fin 1024) : (tokRow t p).val = (t.val / 32) * 1024 + p.val := rfl
theorem outRow_val (t : Fin cfg0.N) (q : Fin 1024) : (outRow t q).val = ((t.val / 8) % 4) * 1024 + q.val := rfl

/-! ## The block index of every window at every point, decided once over the 128 points -/

theorem idx_w0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem idx_w1 : ∀ t : Fin cfg0.N, win0_1.index t (0 : Fin 2) = (t.val / 8) % 4 ∧ win0_1.index t (1 : Fin 2) = t.val % 8 :=
  (by decide +kernel : ∀ t : Fin grid0.N, win0_1.index t (0 : Fin 2) = (t.val / 8) % 4 ∧ win0_1.index t (1 : Fin 2) = t.val % 8)
theorem idx_w2 : ∀ t : Fin cfg0.N, win0_2.index t (0 : Fin 2) = (t.val / 8) % 4 ∧ win0_2.index t (1 : Fin 2) = t.val % 8 :=
  (by decide +kernel : ∀ t : Fin grid0.N, win0_2.index t (0 : Fin 2) = (t.val / 8) % 4 ∧ win0_2.index t (1 : Fin 2) = t.val % 8)
theorem idx_w3 : ∀ t : Fin cfg0.N, win0_3.index t (0 : Fin 2) = (t.val / 8) % 4 ∧ win0_3.index t (1 : Fin 2) = t.val % 8 :=
  (by decide +kernel : ∀ t : Fin grid0.N, win0_3.index t (0 : Fin 2) = (t.val / 8) % 4 ∧ win0_3.index t (1 : Fin 2) = t.val % 8)
theorem idx_w4 : ∀ t : Fin cfg0.N, win0_4.index t (0 : Fin 2) = 0 ∧ win0_4.index t (1 : Fin 2) = (t.val / 8) % 4 :=
  (by decide +kernel : ∀ t : Fin grid0.N, win0_4.index t (0 : Fin 2) = 0 ∧ win0_4.index t (1 : Fin 2) = (t.val / 8) % 4)
theorem idx_w5 : ∀ t : Fin cfg0.N, win0_5.index t (0 : Fin 2) = 0 ∧ win0_5.index t (1 : Fin 2) = (t.val / 8) % 4 :=
  (by decide +kernel : ∀ t : Fin grid0.N, win0_5.index t (0 : Fin 2) = 0 ∧ win0_5.index t (1 : Fin 2) = (t.val / 8) % 4)
theorem idx_w6 : ∀ t : Fin cfg0.N, win0_6.index t (0 : Fin 2) = 0 ∧ win0_6.index t (1 : Fin 2) = (t.val / 8) % 4 :=
  (by decide +kernel : ∀ t : Fin grid0.N, win0_6.index t (0 : Fin 2) = 0 ∧ win0_6.index t (1 : Fin 2) = (t.val / 8) % 4)
theorem idx_w7 : ∀ t : Fin cfg0.N, win0_7.index t (0 : Fin 2) = t.val / 32 ∧ win0_7.index t (1 : Fin 2) = (t.val / 8) % 4 :=
  (by decide +kernel : ∀ t : Fin grid0.N, win0_7.index t (0 : Fin 2) = t.val / 32 ∧ win0_7.index t (1 : Fin 2) = (t.val / 8) % 4)

/-! ## The blocks read at coordinates -/

/-- Entry (p, j) of the `x` block at point `t` is `x` at token `tokRow t p`, input `512 (t % 8) + j`. -/
theorem xblk_apply (c : Dev nD) (t : Fin cfg0.N) (p : Fin 1024) (j : Fin 512) :
    xblk m c t (ix2 p j) = X m c (ix2 (tokRow t p) (blkIdx (t.val % 8) j)) := by
  show iblk m c 0 t (ix2 p j) = _
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ =>
    show win0_0.index t (0 : Fin 2) * 1024 + 1 * p.val = (t.val / 32) * 1024 + p.val
    rw [(idx_w0 t).1]; omega
  | ⟨1, _⟩ =>
    show win0_0.index t (1 : Fin 2) * 512 + 1 * j.val = ((t.val % 8) % 8) * 512 + j.val
    rw [(idx_w0 t).2]; omega

/-- Entry (q, j) of the weight-mean block at point `t`. -/
theorem wmublk_apply (c : Dev nD) (t : Fin cfg0.N) (q : Fin 1024) (j : Fin 512) :
    wmublk m c t (ix2 q j) = Wmu m c (ix2 (outRow t q) (blkIdx (t.val % 8) j)) := by
  show iblk m c 1 t (ix2 q j) = _
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ =>
    show win0_1.index t (0 : Fin 2) * 1024 + 1 * q.val = ((t.val / 8) % 4) * 1024 + q.val
    rw [(idx_w1 t).1]; omega
  | ⟨1, _⟩ =>
    show win0_1.index t (1 : Fin 2) * 512 + 1 * j.val = ((t.val % 8) % 8) * 512 + j.val
    rw [(idx_w1 t).2]; omega

/-- Entry (q, j) of the weight-spread block at point `t`. -/
theorem wrhoblk_apply (c : Dev nD) (t : Fin cfg0.N) (q : Fin 1024) (j : Fin 512) :
    wrhoblk m c t (ix2 q j) = Wrho m c (ix2 (outRow t q) (blkIdx (t.val % 8) j)) := by
  show iblk m c 2 t (ix2 q j) = _
  unfold iblk
  rw [View.read_apply]
  show V m c main_arg2 _ = m ((c : Thread nD τ).loc main_arg2) _
  rw [V_main_arg2]
  refine congrArg (m ((c : Thread nD τ).loc main_arg2)) (funext fun a => Fin.ext ?_)
  match a with
  | ⟨0, _⟩ =>
    show win0_2.index t (0 : Fin 2) * 1024 + 1 * q.val = ((t.val / 8) % 4) * 1024 + q.val
    rw [(idx_w2 t).1]; omega
  | ⟨1, _⟩ =>
    show win0_2.index t (1 : Fin 2) * 512 + 1 * j.val = ((t.val % 8) % 8) * 512 + j.val
    rw [(idx_w2 t).2]; omega

/-- Entry (q, j) of the weight-noise block at point `t`. -/
theorem epswblk_apply (c : Dev nD) (t : Fin cfg0.N) (q : Fin 1024) (j : Fin 512) :
    epswblk m c t (ix2 q j) = Epsw m c (ix2 (outRow t q) (blkIdx (t.val % 8) j)) := by
  show iblk m c 3 t (ix2 q j) = _
  unfold iblk
  rw [View.read_apply]
  show V m c main_arg5 _ = m ((c : Thread nD τ).loc main_arg5) _
  rw [V_main_arg5]
  refine congrArg (m ((c : Thread nD τ).loc main_arg5)) (funext fun a => Fin.ext ?_)
  match a with
  | ⟨0, _⟩ =>
    show win0_3.index t (0 : Fin 2) * 1024 + 1 * q.val = ((t.val / 8) % 4) * 1024 + q.val
    rw [(idx_w3 t).1]; omega
  | ⟨1, _⟩ =>
    show win0_3.index t (1 : Fin 2) * 512 + 1 * j.val = ((t.val % 8) % 8) * 512 + j.val
    rw [(idx_w3 t).2]; omega

/-- The host reshapes the bias-mean vector to one row of 4096 before the call. -/
theorem main_v0_eq (c : Dev nD) :
    (V m c main_v0 : Vec Ideal S1x4096 .f32) = shapeCast S1x4096 (Bmu m c) shapeCasts_S4096_S1x4096 := by
  dsimp only [Gen.V, Gen.hostOps0]; after_results; rfl

/-- Entry `q` of the bias-mean row block at point `t` is the bias-mean vector at output `outRow t q`. -/
theorem bmublk_apply (c : Dev nD) (t : Fin cfg0.N) (q : Fin 1024) :
    bmublk m c t (ix2 (0 : Fin 1) q) = Bmu m c (ix1 (outRow t q)) := by
  show iblk m c 4 t (ix2 (0 : Fin 1) q) = _
  unfold iblk
  rw [View.read_apply]
  show V m c main_v0 _ = _
  rw [main_v0_eq]
  refine (congrArg (shapeCast S1x4096 (Bmu m c) shapeCasts_S4096_S1x4096)
    (?_ : _ = ix2 (0 : Fin 1) (outRow t q))).trans (shapeCast_a_1a_apply _ _ _ _)
  refine funext fun a => Fin.ext ?_
  match a with
  | ⟨0, _⟩ =>
    show win0_4.index t (0 : Fin 2) * 1 + 1 * 0 = 0
    rw [(idx_w4 t).1]
  | ⟨1, _⟩ =>
    show win0_4.index t (1 : Fin 2) * 1024 + 1 * q.val = ((t.val / 8) % 4) * 1024 + q.val
    rw [(idx_w4 t).2]; omega

/-- The host reshapes the bias-spread vector to one row of 4096 before the call. -/
theorem main_v1_eq (c : Dev nD) :
    (V m c main_v1 : Vec Ideal S1x4096 .f32) = shapeCast S1x4096 (Brho m c) shapeCasts_S4096_S1x4096 := by
  dsimp only [Gen.V, Gen.hostOps0]; after_results; rfl

/-- Entry `q` of the bias-spread row block at point `t` is the bias-spread vector at output `outRow t q`. -/
theorem brhoblk_apply (c : Dev nD) (t : Fin cfg0.N) (q : Fin 1024) :
    brhoblk m c t (ix2 (0 : Fin 1) q) = Brho m c (ix1 (outRow t q)) := by
  show iblk m c 5 t (ix2 (0 : Fin 1) q) = _
  unfold iblk
  rw [View.read_apply]
  show V m c main_v1 _ = _
  rw [main_v1_eq]
  refine (congrArg (shapeCast S1x4096 (Brho m c) shapeCasts_S4096_S1x4096)
    (?_ : _ = ix2 (0 : Fin 1) (outRow t q))).trans (shapeCast_a_1a_apply _ _ _ _)
  refine funext fun a => Fin.ext ?_
  match a with
  | ⟨0, _⟩ =>
    show win0_5.index t (0 : Fin 2) * 1 + 1 * 0 = 0
    rw [(idx_w5 t).1]
  | ⟨1, _⟩ =>
    show win0_5.index t (1 : Fin 2) * 1024 + 1 * q.val = ((t.val / 8) % 4) * 1024 + q.val
    rw [(idx_w5 t).2]; omega

/-- The host reshapes the bias-noise vector to one row of 4096 before the call. -/
theorem main_v2_eq (c : Dev nD) :
    (V m c main_v2 : Vec Ideal S1x4096 .f32) = shapeCast S1x4096 (Epsb m c) shapeCasts_S4096_S1x4096 := by
  dsimp only [Gen.V, Gen.hostOps0]; after_results; rfl

/-- Entry `q` of the bias-noise row block at point `t` is the bias-noise vector at output `outRow t q`. -/
theorem epsbblk_apply (c : Dev nD) (t : Fin cfg0.N) (q : Fin 1024) :
    epsbblk m c t (ix2 (0 : Fin 1) q) = Epsb m c (ix1 (outRow t q)) := by
  show iblk m c 6 t (ix2 (0 : Fin 1) q) = _
  unfold iblk
  rw [View.read_apply]
  show V m c main_v2 _ = _
  rw [main_v2_eq]
  refine (congrArg (shapeCast S1x4096 (Epsb m c) shapeCasts_S4096_S1x4096)
    (?_ : _ = ix2 (0 : Fin 1) (outRow t q))).trans (shapeCast_a_1a_apply _ _ _ _)
  refine funext fun a => Fin.ext ?_
  match a with
  | ⟨0, _⟩ =>
    show win0_6.index t (0 : Fin 2) * 1 + 1 * 0 = 0
    rw [(idx_w6 t).1]
  | ⟨1, _⟩ =>
    show win0_6.index t (1 : Fin 2) * 1024 + 1 * q.val = ((t.val / 8) % 4) * 1024 + q.val
    rw [(idx_w6 t).2]; omega

end Cert.KernelIdeal.Blocks

end
-- ==== Proof.Accum.lean ====
/-
  The accumulator after every grid point, and the output tile at the last step of each tile.

  Write `t = 8 g + k` with `k = t % 8`. The eight points of group `g` share one (token tile, output tile) pair and walk the
  contracted axis in blocks of 512. By induction on `t`: after point `t` the accumulator holds, at (p, q), the
  contraction of token `tokRow t p` with output `outRow t q` over the first `k + 1` blocks of inputs. At `k = 0` the
  body resets to zero and adds block 0; at `k > 0` it adds block `k` to what point `t - 1` left, and `t - 1` is in
  the same group, so it has the same token and output rows. At `k = 7` all eight blocks are in, and the tile the body
  writes is that full contraction plus the bias of the output: the layer's result at (`tokRow t p`, `outRow t q`).
-/
import proofs.«167456_j83769042141907_1_alg».proof.Proof.Gen.KernelIdeal.Frame
import proofs.«167456_j83769042141907_1_alg».proof.Proof.Pieces
import proofs.«167456_j83769042141907_1_alg».proof.Proof.Payload
import proofs.«167456_j83769042141907_1_alg».proof.Proof.Blocks

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.SampledLinear Cert.BlockSum
open Cert.KernelIdeal.Blocks Cert.KernelIdeal.Pieces Cert.KernelIdeal.Payload

variable (m : (ℓ : Loc nD τ sig) → Buf (Elt Ideal) ℓ)

/-! ## What each case leaves, at the point's own blocks -/

/-- First step of a tile: the update of the reset value. -/
theorem after_first (c : Dev nD) (t : Fin cfg0.N) (h0 : t.val % 8 = 0) (h1 : ¬t.val % 8 = 7) :
    (outsAt0 m c t.val t.isLt).2 = k0_pay2 (F := Ideal) (wrhoblk m c t) (wmublk m c t) (epswblk m c t) (xblk m c t) (k0_pay1 (F := Ideal)) := by
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- A middle step: the update of what the point before left. -/
theorem after_mid (c : Dev nD) (t : Fin cfg0.N) (h0 : ¬t.val % 8 = 0) (h1 : ¬t.val % 8 = 7) :
    (outsAt0 m c t.val t.isLt).2 = k0_pay2 (F := Ideal) (wrhoblk m c t) (wmublk m c t) (epswblk m c t) (xblk m c t) (outsAt0 m c (t.val - 1) (Nat.lt_of_le_of_lt (Nat.sub_le _ _) t.isLt)).2 := by
  rw [outsAt0_B m c t h0 h1]
  dsimp only
  exact scratch_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- The last step leaves the same kind of update in the accumulator, -/
theorem after_last (c : Dev nD) (t : Fin cfg0.N) (h0 : ¬t.val % 8 = 0) (h1 : t.val % 8 = 7) :
    (outsAt0 m c t.val t.isLt).2 = k0_pay2 (F := Ideal) (wrhoblk m c t) (wmublk m c t) (epswblk m c t) (xblk m c t) (outsAt0 m c (t.val - 1) (Nat.lt_of_le_of_lt (Nat.sub_le _ _) t.isLt)).2 := by
  rw [outsAt0_C m c t h0 h1]
  dsimp only
  exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- and in the output tile that accumulator plus the bias row. -/
theorem tile_at_last (c : Dev nD) (t : Fin cfg0.N) (h0 : ¬t.val % 8 = 0) (h1 : t.val % 8 = 7) :
    (outsAt0 m c t.val t.isLt).1
      = k0_pay3 (F := Ideal) (brhoblk m c t) (bmublk m c t) (epsbblk m c t) (k0_pay2 (F := Ideal) (wrhoblk m c t) (wmublk m c t) (epswblk m c t) (xblk m c t) (outsAt0 m c (t.val - 1) (Nat.lt_of_le_of_lt (Nat.sub_le _ _) t.isLt)).2) := by
  rw [outsAt0_C m c t h0 h1]
  dsimp only
  exact tile_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-! ## One step's product is one block of the contraction -/

/-- The 512 products of point `t` at (p, q) are the terms of block `t % 8` for token `tokRow t p`, output `outRow t q`. -/
theorem step_sum (c : Dev nD) (t : Fin cfg0.N) (p q : Fin 1024) :
    ∑ j : Fin 512, xblk m c t (ix2 p j)
        * (wmublk m c t (ix2 q j) + Ideal.log1p (Ideal.exp (wrhoblk m c t (ix2 q j))) * epswblk m c t (ix2 q j))
      = ∑ j : Fin 512, term (X m c) (Wmu m c) (Wrho m c) (Epsw m c) (tokRow t p) (outRow t q) (blkIdx (t.val % 8) j) := by
  refine Finset.sum_congr rfl fun j _ => ?_
  rw [xblk_apply m c t p j, wmublk_apply m c t q j, wrhoblk_apply m c t q j, epswblk_apply m c t q j]
  rfl

/-- The update at point `t`, at (p, q): what was there plus block `t % 8`. -/
theorem update_value (c : Dev nD) (t : Fin cfg0.N) (acc : Vec Ideal S1024x1024 .f32) (p q : Fin 1024) :
    k0_pay2 (F := Ideal) (wrhoblk m c t) (wmublk m c t) (epswblk m c t) (xblk m c t) acc (ix2 p q)
      = acc (ix2 p q) + ∑ j : Fin 512, term (X m c) (Wmu m c) (Wrho m c) (Epsw m c) (tokRow t p) (outRow t q) (blkIdx (t.val % 8) j) :=
  (update_apply (wrhoblk m c t) (wmublk m c t) (epswblk m c t) (xblk m c t) acc p q).trans
    (congrArg (fun s => acc (ix2 p q) + s) (step_sum m c t p q))

/-! ## The accumulator after every point -/

/-- After point `n` the accumulator at (p, q) is the contraction over the first `n % 8 + 1` blocks. -/
theorem accum_after (c : Dev nD) : ∀ (n : ℕ) (h : n < cfg0.N) (p q : Fin 1024),
    (outsAt0 m c n h).2 (ix2 p q)
      = accum (X m c) (Wmu m c) (Wrho m c) (Epsw m c) (tokRow ⟨n, h⟩ p) (outRow ⟨n, h⟩ q) (n % 8 + 1) := by
  intro n
  induction n with
  | zero =>
    intro h p q
    refine (congrFun (after_first m c ⟨0, h⟩ rfl (show ¬(0 : ℕ) % 8 = 7 by decide)) (ix2 p q)).trans ?_
    refine (update_value m c ⟨0, h⟩ _ p q).trans ?_
    rw [reset_apply]
    exact accum_first (X m c) (Wmu m c) (Wrho m c) (Epsw m c) (tokRow ⟨0, h⟩ p) (outRow ⟨0, h⟩ q)
  | succ n ih =>
    intro h p q
    have hN : n + 1 < 128 := lt_of_lt_of_eq h (show cfg0.N = 128 from N_0)
    by_cases h0 : (n + 1) % 8 = 0
    · have h1 : ¬(n + 1) % 8 = 7 := by omega
      refine (congrFun (after_first m c ⟨n + 1, h⟩ h0 h1) (ix2 p q)).trans ?_
      refine (update_value m c ⟨n + 1, h⟩ _ p q).trans ?_
      rw [reset_apply]
      show (0 : EReal) + ∑ j : Fin 512, term (X m c) (Wmu m c) (Wrho m c) (Epsw m c) (tokRow ⟨n + 1, h⟩ p) (outRow ⟨n + 1, h⟩ q) (blkIdx ((n + 1) % 8) j)
        = accum (X m c) (Wmu m c) (Wrho m c) (Epsw m c) (tokRow ⟨n + 1, h⟩ p) (outRow ⟨n + 1, h⟩ q) ((n + 1) % 8 + 1)
      rw [h0]
      exact accum_first (X m c) (Wmu m c) (Wrho m c) (Epsw m c) (tokRow ⟨n + 1, h⟩ p) (outRow ⟨n + 1, h⟩ q)
    · have hprev := ih (Nat.lt_of_succ_lt h) p q
      have hrow : tokRow ⟨n, Nat.lt_of_succ_lt h⟩ p = tokRow ⟨n + 1, h⟩ p :=
        Fin.ext (by rw [tokRow_val, tokRow_val]; show n / 32 * 1024 + p.val = (n + 1) / 32 * 1024 + p.val; omega)
      have hcol : outRow ⟨n, Nat.lt_of_succ_lt h⟩ q = outRow ⟨n + 1, h⟩ q :=
        Fin.ext (by rw [outRow_val, outRow_val]; show n / 8 % 4 * 1024 + q.val = (n + 1) / 8 % 4 * 1024 + q.val; omega)
      have hk : n % 8 + 1 = (n + 1) % 8 := by omega
      have hstep : (outsAt0 m c n (Nat.lt_of_succ_lt h)).2 (ix2 p q)
            + ∑ j : Fin 512, term (X m c) (Wmu m c) (Wrho m c) (Epsw m c) (tokRow ⟨n + 1, h⟩ p) (outRow ⟨n + 1, h⟩ q) (blkIdx ((n + 1) % 8) j)
          = accum (X m c) (Wmu m c) (Wrho m c) (Epsw m c) (tokRow ⟨n + 1, h⟩ p) (outRow ⟨n + 1, h⟩ q) ((n + 1) % 8 + 1) := by
        rw [hprev, hrow, hcol, hk]
        exact accum_step (X m c) (Wmu m c) (Wrho m c) (Epsw m c) (tokRow ⟨n + 1, h⟩ p) (outRow ⟨n + 1, h⟩ q) ((n + 1) % 8)
      by_cases h1 : (n + 1) % 8 = 7
      · refine (congrFun (after_last m c ⟨n + 1, h⟩ h0 h1) (ix2 p q)).trans ?_
        exact (update_value m c ⟨n + 1, h⟩ _ p q).trans hstep
      · refine (congrFun (after_mid m c ⟨n + 1, h⟩ h0 h1) (ix2 p q)).trans ?_
        exact (update_value m c ⟨n + 1, h⟩ _ p q).trans hstep

/-! ## The tile written at the last step -/

/-- At a point with `t % 8 = 7` the output tile at (p, q) is the layer's result for token `tokRow t p`, output `outRow t q`. -/
theorem tile_value (c : Dev nD) (t : Fin cfg0.N) (h1 : t.val % 8 = 7) (p q : Fin 1024) :
    (outsAt0 m c t.val t.isLt).1 (ix2 p q)
      = layer (X m c) (Wmu m c) (Wrho m c) (Bmu m c) (Brho m c) (Epsw m c) (Epsb m c) (ix2 (tokRow t p) (outRow t q)) := by
  have h0 : ¬t.val % 8 = 0 := by omega
  refine (congrFun (tile_at_last m c t h0 h1) (ix2 p q)).trans ?_
  rw [← after_last m c t h0 h1]
  refine (tile_apply (brhoblk m c t) (bmublk m c t) (epsbblk m c t) (outsAt0 m c t.val t.isLt).2 p q).trans ?_
  rw [accum_after m c t.val t.isLt p q, bmublk_apply m c t q, brhoblk_apply m c t q, epsbblk_apply m c t q, h1]
  exact accum_all_add_bias (X m c) (Wmu m c) (Wrho m c) (Bmu m c) (Brho m c) (Epsw m c) (Epsb m c) (tokRow t p) (outRow t q)

end Cert.KernelIdeal.Accum

end
-- ==== Proof.Output.lean ====
/-
  From the tiles written at the last steps to the whole result array.

  The output's 1024 × 1024 tile for (token tile `bi`, output tile `bj`) is written back only at the last of that tile's
  eight points, `t = (4 bi + bj) * 8 + 7`, and what is written there is the layer's result restricted to the tile. The
  sixteen tiles tile the 4096 × 4096 array: index (r, s) lies in the tile of `bi = r / 1024`, `bj = s / 1024`. So after the
  run the array is the layer's result everywhere.
-/
import proofs.«167456_j83769042141907_1_alg».proof.Proof.Gen.KernelIdeal.Value
import proofs.«167456_j83769042141907_1_alg».proof.Proof.Accum

noncomputable section

namespace Cert.KernelIdeal.Output

open Cert.KernelIdeal Cert.KernelIdeal.Gen Idealize.ShloMosaic Idealize.ShloMosaic.TcCoe Idealize.SL.Sem
open Idealize.ShloMosaic.Pipeline (Dat)
open Idealize.ShloMosaic.ValueIdx Cert.SampledLinear
open Cert.KernelIdeal.Blocks Cert.KernelIdeal.Accum

variable (m : (ℓ : Loc nD τ sig) → Buf (Elt Ideal) ℓ) (ρ : Dev nD → PrngReg)

/-- The layer's result of the arrays as launched: what the result array ends holding. -/
abbrev result (c : Dev nD) : Buf (Elt Ideal) ((c : Thread nD τ).loc main_v3) := layer (X m c) (Wmu m c) (Wrho m c) (Bmu m c) (Brho m c) (Epsw m c) (Epsb m c)

/-- What a flushing point writes back is its tile of the layer's result. -/
theorem flushed_eq (c : Dev nD) (t : Fin cfg0.N) (hf : (cfg0.win 7).flush t = true) :
    (dats m 0 c).flushed 7 t = ((cfg0.win 7).blk t).view.read (Elt Ideal) (result m c) := by
  have h1 : t.val % 8 = 7 := (flush0_7 t).mp hf
  rw [Cert.KernelIdeal.Value.flushed7]
  funext y
  obtain ⟨p, q, rfl⟩ : ∃ (p q : Fin 1024), y = ix2 p q := ⟨y 0, y 1, eq_ix2 (n0 := 1024) (n1 := 1024) y⟩
  show (outsAt0 m c t.val t.isLt).1 (ix2 p q) = result m c (((cfg0.win 7).blk t).view.emb (ix2 p q))
  rw [tile_value m c t h1 p q]
  refine congrArg (result m c) (funext fun a => Fin.ext ?_)
  match a with
  | ⟨0, _⟩ =>
    show (t.val / 32) * 1024 + p.val = win0_7.index t (0 : Fin 2) * 1024 + 1 * p.val
    rw [(idx_w7 t).1]; omega
  | ⟨1, _⟩ =>
    show ((t.val / 8) % 4) * 1024 + q.val = win0_7.index t (1 : Fin 2) * 1024 + 1 * q.val
    rw [(idx_w7 t).2]; omega

/-- An index of the array is in point `t`'s tile iff each coordinate is in the tile's range on its axis. -/
theorem mem_tile (t : Fin cfg0.N) (i : S4096x4096.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v3).slice (win0_7.rect t)).set ↔ _
  rw [View.set_slice_whole, Rect.mem_set_unit]
  exact Iff.rfl

/-- The last point of the tile that holds index `i`. -/
def lastPointOf (i : S4096x4096.Idx) : Fin cfg0.N :=
  ⟨((i 0).val / 1024 * 4 + (i 1).val / 1024) * 8 + 7, by
    have h0 : (i 0).val < 4096 := (i 0).isLt
    have h1 : (i 1).val < 4096 := (i 1).isLt
    have hN : cfg0.N = 128 := N_0
    omega⟩

theorem lastPointOf_val (i : S4096x4096.Idx) :
    (lastPointOf i).val = ((i 0).val / 1024 * 4 + (i 1).val / 1024) * 8 + 7 := rfl

/-- Every index of the result array is in the tile some flushing point writes. -/
theorem covered (i : S4096x4096.Idx) :
    ∃ t : Fin cfg0.N, (cfg0.win 7).flush t = true ∧ i ∈ ((cfg0.win 7).blk t).view.set := by
  have h0 : (i 0).val < 4096 := (i 0).isLt
  have h1 : (i 1).val < 4096 := (i 1).isLt
  have hv := lastPointOf_val i
  refine ⟨lastPointOf i, (flush0_7 _).mpr (by rw [hv]; omega), ?_⟩
  rw [mem_tile]
  intro a
  match a with
  | ⟨0, _⟩ =>
    show win0_7.index (lastPointOf i) (0 : Fin 2) * 1024 ≤ (i 0).val
      ∧ (i 0).val < win0_7.index (lastPointOf i) (0 : Fin 2) * 1024 + 1024
    rw [(idx_w7 (lastPointOf i)).1, hv]; omega
  | ⟨1, _⟩ =>
    show win0_7.index (lastPointOf i) (1 : Fin 2) * 1024 ≤ (i 1).val
      ∧ (i 1).val < win0_7.index (lastPointOf i) (1 : Fin 2) * 1024 + 1024
    rw [(idx_w7 (lastPointOf i)).2, hv]; omega

/-- After the run the result array is the layer's result. -/
theorem final (c : Dev nD) : (dats m 0 c).arrAt 7 cfg0.N = result m c :=
  (dats m 0 c).arrAt_eq_of_cover 7 (result m c) (fun t hf => flushed_eq m c t hf) covered

/-- The kernel's run on the extended reals: it terminates with the result array at the layer's result of the
    arguments, and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Output

end
-- ==== Proof.lean ====
/-
  A linear layer with weights and bias sampled by reparameterization,
    result[n, o] = (∑ i, x[n, i] * (w_mu[o, i] + log (1 + exp w_rho[o, i]) * eps_w[o, i]))
                   + (b_mu[o] + log (1 + exp b_rho[o]) * eps_b[o]),
  computed two ways: by a kernel that tiles tokens and outputs by 1024 and walks the 4096 inputs in eight blocks of 512,
  keeping a running sum per tile and adding the bias when the eighth block is in; and by a host program that builds the
  sampled weights and bias whole and contracts once.

  On the extended reals the two agree at every index, for every input: the host's `exp` and `log1p` are the kernel's,
  narrowing an operand to a shorter float format is the identity, a product into a zero accumulator is the bare sum,
  and a sum of 4096 terms taken as eight consecutive blocks of 512, starting from zero, is the same sum — which needs
  only that addition is commutative and associative, so no finiteness of the inputs is used.

  The three programs' runs terminate without a fault and leave their arguments unchanged: the two kernel programs by
  their generated frames, the host program by its generated run. The idealization rewrote nothing, so there is nothing
  to preserve.
-/
import proofs.«167456_j83769042141907_1_alg».proof.Defs
import proofs.«167456_j83769042141907_1_alg».proof.Proof.Gen.Kernel
import proofs.«167456_j83769042141907_1_alg».proof.Proof.Gen.Kernel.Skeleton
import proofs.«167456_j83769042141907_1_alg».proof.Proof.Gen.Kernel.Launch
import proofs.«167456_j83769042141907_1_alg».proof.Proof.Gen.Kernel.Points
import proofs.«167456_j83769042141907_1_alg».proof.Proof.Gen.Kernel.Frame
import proofs.«167456_j83769042141907_1_alg».proof.Proof.Gen.KernelIdeal
import proofs.«167456_j83769042141907_1_alg».proof.Proof.Gen.KernelIdeal.Skeleton
import proofs.«167456_j83769042141907_1_alg».proof.Proof.Gen.KernelIdeal.Launch
import proofs.«167456_j83769042141907_1_alg».proof.Proof.Gen.KernelIdeal.Points
import proofs.«167456_j83769042141907_1_alg».proof.Proof.Gen.KernelIdeal.Frame
import proofs.«167456_j83769042141907_1_alg».proof.Proof.Gen.ReferenceIdeal
import proofs.«167456_j83769042141907_1_alg».proof.Proof.Gen.Pre_finite_inputs
import proofs.«167456_j83769042141907_1_alg».proof.Proof.Gen.KernelIdeal.Value
import proofs.«167456_j83769042141907_1_alg».proof.Proof.Gen.ReferenceIdeal.Run
import proofs.«167456_j83769042141907_1_alg».proof.Proof.Gen.ReferenceIdeal.Read
import Idealize.ShloMosaic.Adequacy
import Idealize.ShloMosaic.Init
import proofs.«167456_j83769042141907_1_alg».proof.Proof.RefIsLayer
import proofs.«167456_j83769042141907_1_alg».proof.Proof.Output

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The host program runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments, both programs end with the layer's result of those arguments. -/
theorem algebraic : Cert.algebraic_KernelIdeal_ReferenceIdeal := by
  intro m ρ m' ρ' _ hagree
  refine ⟨fun c => Cert.KernelIdeal.Output.result m c, Cert.KernelIdeal.Output.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v11_eq, Cert.ReferenceIdeal.RefValue.ref_eq_layer, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
